-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S256x4096 : Shape := ⟨2, ![256, 4096]⟩
abbrev S4096 : Shape := ⟨1, ![4096]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256x4096 : S_.BroadcastsInDim S256x4096 (![] : Fin 0 → Fin S256x4096.rank)
  reducesTo_S256x4096_S_d0_1 : S256x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S256x4096 .f32) (main_arg5 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S256x4096 .f32 := Host.absf main_arg4
  let main_cst_6 : FVec F S_ .f32 := constant S_ .f32 0x7F800000#32
  let main_v20 : FVec F S256x4096 .f32 := broadcastInDim S256x4096 ![] bcast_S_S256x4096 main_cst_6
  let main_v21 : IVec S256x4096 1 := cmpf .olt main_v19 main_v20
  let main_c_7 : IVec S_ 1 := constantI S_ 1 1#1
  let main_v22 : IVec S_ 1 := (fun x v => Host.reduce IntOp.andi x v reducesTo_S256x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S4096x256 .f32) (main_arg1 : FVec F S4096x256 .f32) (main_arg2 : FVec F S256x4096 .f32) (main_arg3 : FVec F S4096 .f32) (main_arg4 : FVec F S256x4096 .f32) (main_arg5 : FVec F S4096 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S256x4096 .f32 := Host.absf main_arg2
  let main_cst_2 : FVec F S_ .f32 := constant S_ .f32 0x7F800000#32
  let main_v10 : FVec F S256x4096 .f32 := broadcastInDim S256x4096 ![] bcast_S_S256x4096 main_cst_2
  let main_v11 : IVec S256x4096 1 := cmpf .olt main_v9 main_v10
  let main_c_3 : IVec S_ 1 := constantI S_ 1 1#1
  let main_v12 : IVec S_ 1 := (fun x v => Host.reduce IntOp.andi x v reducesTo_S256x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S4096x256 : Shape := ⟨2, ![4096, 256]⟩
abbrev S256x4096 : Shape := ⟨2, ![256, 4096]⟩
abbrev S4096 : Shape := ⟨1, ![4096]⟩
abbrev S256x256x16 : Shape := ⟨3, ![256, 256, 16]⟩
abbrev S256x16x256 : Shape := ⟨3, ![256, 16, 256]⟩
abbrev S256x16 : Shape := ⟨2, ![256, 16]⟩
abbrev S16x256 : Shape := ⟨2, ![16, 256]⟩
abbrev S32x256 : Shape := ⟨2, ![32, 256]⟩
abbrev S32x4096 : Shape := ⟨2, ![32, 4096]⟩
abbrev S1x4096 : Shape := ⟨2, ![1, 4096]⟩
abbrev S32x16x256 : Shape := ⟨3, ![32, 16, 256]⟩
abbrev S32x256x256 : Shape := ⟨3, ![32, 256, 256]⟩

abbrev nBuf : Space → Nat
  | .hbm => 16
  | .vmem => 12
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256x4096, .f32⟩
  | .hbm, ⟨3, _⟩ => ⟨S4096, .f32⟩
  | .hbm, ⟨4, _⟩ => ⟨S256x4096, .f32⟩
  | .hbm, ⟨5, _⟩ => ⟨S4096, .f32⟩
  | .hbm, ⟨6, _⟩ => ⟨S256x256x16, .f32⟩
  | .hbm, ⟨7, _⟩ => ⟨S256x16x256, .f32⟩
  | .hbm, ⟨8, _⟩ => ⟨S256x4096, .f32⟩
  | .hbm, ⟨9, _⟩ => ⟨S256x4096, .bf16⟩
  | .hbm, ⟨10, _⟩ => ⟨S256x16, .f32⟩
  | .hbm, ⟨11, _⟩ => ⟨S16x256, .f32⟩
  | .hbm, ⟨12, _⟩ => ⟨S4096, .f32⟩
  | .hbm, ⟨13, _⟩ => ⟨S256x4096, .bf16⟩
  | .hbm, ⟨14, _⟩ => ⟨S4096x256, .f32⟩
  | .hbm, ⟨15, _⟩ => ⟨S4096x256, .f32⟩
  | .local _ .vmem, ⟨0, _⟩ => ⟨S32x256, .f32⟩
  | .local _ .vmem, ⟨1, _⟩ => ⟨S32x256, .f32⟩
  | .local _ .vmem, ⟨2, _⟩ => ⟨S32x256, .f32⟩
  | .local _ .vmem, ⟨3, _⟩ => ⟨S32x256, .f32⟩
  | .local _ .vmem, ⟨4, _⟩ => ⟨S256x4096, .bf16⟩
  | .local _ .vmem, ⟨5, _⟩ => ⟨S4096, .f32⟩
  | .local _ .vmem, ⟨6, _⟩ => ⟨S256x4096, .bf16⟩
  | .local _ .vmem, ⟨7, _⟩ => ⟨S4096, .f32⟩
  | .local _ .vmem, ⟨8, _⟩ => ⟨S32x256, .f32⟩
  | .local _ .vmem, ⟨9, _⟩ => ⟨S32x256, .f32⟩
  | .local _ .vmem, ⟨10, _⟩ => ⟨S32x256, .f32⟩
  | .local _ .vmem, ⟨11, _⟩ => ⟨S32x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S256x4096_S256x256x16 : S256x4096.ShapeCasts S256x256x16
  transposes_S256x256x16_S256x16x256_0_2_1 : S256x256x16.Transposes [0, 2, 1] S256x16x256
  shapeCasts_S256x16x256_S256x4096 : S256x16x256.ShapeCasts S256x4096
  bitsLt_bf16_f32 : FTy.bits .bf16 < FTy.bits .f32
  shapeCasts_S4096_S256x16 : S4096.ShapeCasts S256x16
  transposes_S256x16_S16x256_1_0 : S256x16.Transposes [1, 0] S16x256
  shapeCasts_S16x256_S4096 : S16x256.ShapeCasts S4096
  inb_S32x256_S32x256_0_0 : ∀ a, (![0, 0] : Fin 2 → Nat) a + S32x256.size a ≤ S32x256.size a
  h_S32x256 : 0 < S32x256.numel
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096_S4096_0 : ∀ a, (![0] : Fin 1 → Nat) a + S4096.size a ≤ S4096.size a
  h_S4096 : 0 < S4096.numel
  shapeCasts_S4096_S4096 : S4096.ShapeCasts S4096
  shapeCasts_S4096_S1x4096 : S4096.ShapeCasts S1x4096
  broadcasts_S1x4096_S32x4096 : S1x4096.Broadcasts S32x4096
  shapeCasts_S32x4096_S32x16x256 : S32x4096.ShapeCasts S32x16x256
  reduces_S32x256x256_S32x256 : S32x256x256.Reduces [2] S32x256
  reduces_S32x256x256_S32x256_2 : S32x256x256.Reduces [1] S32x256
  dot_S32x256_S256x4096_S32x4096_1_0_0_1_n_n_wf : DotDims.WF S32x256 S256x4096 S32x4096 [1] [0] [0] [1] [] []
  dot_S32x16x256_S32x16x256_S32x256x256_1_1_2_2_0_0_wf : DotDims.WF S32x16x256 S32x16x256 S32x256x256 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S4096x256.size a
  hwx0_0 : ∀ i : grid0.Coords, EltTy.bits .f32 = 32 ∨ (Rect.block (s := S4096x256) S32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x256.size a ≤ S4096x256.size a
  hwx0_1 : ∀ i : grid0.Coords, EltTy.bits .f32 = 32 ∨ (Rect.block (s := S4096x256) S32x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S256x4096.size a
  hwx0_2 : ∀ i : grid0.Coords, EltTy.bits .bf16 = 32 ∨ (Rect.block (s := S256x4096) S256x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S4096.size a
  hwx0_3 : ∀ i : grid0.Coords, EltTy.bits .f32 = 32 ∨ (Rect.block (s := S4096) S4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S256x4096.size a
  hwx0_4 : ∀ i : grid0.Coords, EltTy.bits .bf16 = 32 ∨ (Rect.block (s := S256x4096) S256x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096.size a ≤ S4096.size a
  hwx0_5 : ∀ i : grid0.Coords, EltTy.bits .f32 = 32 ∨ (Rect.block (s := S4096) S4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x256.size a ≤ S4096x256.size a
  hwx0_6 : ∀ i : grid0.Coords, EltTy.bits .f32 = 32 ∨ (Rect.block (s := S4096x256) S32x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S32x256.size a ≤ S4096x256.size a
  hwx0_7 : ∀ i : grid0.Coords, EltTy.bits .f32 = 32 ∨ (Rect.block (s := S4096x256) S32x256.size (cc0_transform_7 i) (hinb0_7 i)).WholeWords (EltTy.packing .f32)

variable [Facts₀]

def dot_S32x256_S256x4096_S32x4096_1_0_0_1_n_n : DotDims S32x256 S256x4096 S32x4096 where
  lhsContracting := [1]
  rhsContracting := [0]
  lhsNonContracting := [0]
  rhsNonContracting := [1]
  lhsBatch := []
  rhsBatch := []
  wf := dot_S32x256_S256x4096_S32x4096_1_0_0_1_n_n_wf
def dot_S32x16x256_S32x16x256_S32x256x256_1_1_2_2_0_0 : DotDims S32x16x256 S32x16x256 S32x256x256 where
  lhsContracting := [1]
  rhsContracting := [1]
  lhsNonContracting := [2]
  rhsNonContracting := [2]
  lhsBatch := [0]
  rhsBatch := [0]
  wf := dot_S32x16x256_S32x16x256_S32x256x256_1_1_2_2_0_0_wf

abbrev win0_0 : Pipeline.Window sig grid0 :=
  Pipeline.Window.ofSpec (Memref.whole main_arg0) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S256x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8_0) S32x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_1) S32x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x256 : Shape := ⟨2, ![4096, 256]⟩
abbrev S256x4096 : Shape := ⟨2, ![256, 4096]⟩
abbrev S4096 : Shape := ⟨1, ![4096]⟩
abbrev S_ : Shape := ⟨0, ![]⟩
abbrev S4096x4096 : Shape := ⟨2, ![4096, 4096]⟩
abbrev S1x4096 : Shape := ⟨2, ![1, 4096]⟩
abbrev S4096x256x16 : Shape := ⟨3, ![4096, 256, 16]⟩
abbrev S4096x16x256 : Shape := ⟨3, ![4096, 16, 256]⟩
abbrev S4096x256x256 : Shape := ⟨3, ![4096, 256, 256]⟩

abbrev nBuf : Space → Nat
  | .hbm => 35
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S256x4096, .f32⟩
  | .hbm, ⟨3, _⟩ => ⟨S4096, .f32⟩
  | .hbm, ⟨4, _⟩ => ⟨S256x4096, .f32⟩
  | .hbm, ⟨5, _⟩ => ⟨S4096, .f32⟩
  | .hbm, ⟨6, _⟩ => ⟨S_, .f32⟩
  | .hbm, ⟨7, _⟩ => ⟨S4096x4096, .f32⟩
  | .hbm, ⟨8, _⟩ => ⟨S1x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x256x16, .f32⟩
  | .hbm, ⟨15, _⟩ => ⟨S4096x4096, .f32⟩
  | .hbm, ⟨16, _⟩ => ⟨S1x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x16x256, .f32⟩
  | .hbm, ⟨23, _⟩ => ⟨S4096x256x256, .f32⟩
  | .hbm, ⟨24, _⟩ => ⟨S4096x256x256, .f32⟩
  | .hbm, ⟨25, _⟩ => ⟨S4096x256x256, .f32⟩
  | .hbm, ⟨26, _⟩ => ⟨S4096x256x256, .f32⟩
  | .hbm, ⟨27, _⟩ => ⟨S_, .f32⟩
  | .hbm, ⟨28, _⟩ => ⟨S4096x256, .f32⟩
  | .hbm, ⟨29, _⟩ => ⟨S4096x256, .f32⟩
  | .hbm, ⟨30, _⟩ => ⟨S_, .f32⟩
  | .hbm, ⟨31, _⟩ => ⟨S4096x256, .f32⟩
  | .hbm, ⟨32, _⟩ => ⟨S4096x256, .f32⟩
  | .hbm, ⟨33, _⟩ => ⟨S4096x256, .f32⟩
  | .hbm, ⟨34, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call1_cst : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  shapeCasts_S4096x4096_S4096x256x16 : S4096x4096.ShapeCasts S4096x256x16
  shapeCasts_S4096x4096_S4096x16x256 : S4096x4096.ShapeCasts S4096x16x256
  bcast_S_S4096x256x256 : S_.BroadcastsInDim S4096x256x256 (![] : Fin 0 → Fin S4096x256x256.rank)
  reducesTo_S4096x256x256_S4096x256_d2 : S4096x256x256.ReducesTo [2] S4096x256
  h_S_ : 0 < S_.numel
  reducesTo_S4096x256x256_S4096x256_d1 : S4096x256x256.ReducesTo [1] S4096x256
  dot_S4096x256_S256x4096_S4096x4096_1_0_0_1_n_n_wf : DotDims.WF S4096x256 S256x4096 S4096x4096 [1] [0] [0] [1] [] []
  dot_S4096x256x16_S4096x16x256_S4096x256x256_2_1_1_2_0_0_wf : DotDims.WF S4096x256x16 S4096x16x256 S4096x256x256 [2] [1] [1] [2] [0] [0]

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def dot_S4096x256x16_S4096x16x256_S4096x256x256_2_1_1_2_0_0 : DotDims S4096x256x16 S4096x16x256 S4096x256x256 where
  lhsContracting := [2]
  rhsContracting := [1]
  lhsNonContracting := [1]
  rhsNonContracting := [2]
  lhsBatch := [0]
  rhsBatch := [0]
  wf := dot_S4096x256x16_S4096x16x256_S4096x256x256_2_1_1_2_0_0_wf

class Facts : Prop extends Facts₀ where

variable [Facts]
-- ==== Proof.Spec.lean ====
/-
  The function both programs compute, stated once over abstract arrays of extended reals.

  For a batch row `r`, `lin x W b r j = max (∑ k, x[r,k] · W[k,j] + b[j]) 0` is one column of a
  rectified affine map. The drug side's 4096 columns are read as pairs (d, h) in d-major order
  (column `16 d + h`), the protein side's as pairs (h, p) in h-major order (column `256 h + p`).
  The interaction map is `inter r d p = tanh ((∑ h, lin_d r (d,h) · lin_p r (h,p)) / 16)`, and the two
  results are `x[r,d] · tanh (∑ p, inter r d p)` and `y[r,p] · tanh (∑ d, inter r d p)`.
-/
import Idealize.ShloMosaic.Lib.ValueIdx
import Idealize.ShloMosaic.PureOps.Ideal.Laws

noncomputable section

namespace Cert.Interaction

open Idealize.ShloMosaic Idealize.ShloMosaic.ValueIdx

/-- Column `16 d + h`: the pair (d, h) in d-major order. -/
def colDH (d : Fin 256) (h : Fin 16) : Fin 4096 :=
  ⟨d.val * 16 + h.val, by have := d.isLt; have := h.isLt; omega⟩

/-- Column `256 h + p`: the pair (h, p) in h-major order. -/
def colHD (h : Fin 16) (p : Fin 256) : Fin 4096 :=
  ⟨h.val * 256 + p.val, by have := h.isLt; have := p.isLt; omega⟩

@[simp] theorem colDH_val (d : Fin 256) (h : Fin 16) : (colDH d h).val = d.val * 16 + h.val := rfl
@[simp] theorem colHD_val (h : Fin 16) (p : Fin 256) : (colHD h p).val = h.val * 256 + p.val := rfl

/-- One entry of the rectified affine map: row `r` of `x` against column `j` of `W`, plus the bias, clamped below at 0. -/
def lin {n : Nat} (x : (⟨2, ![n, 256]⟩ : Shape).Idx → EReal) (W : (⟨2, ![256, 4096]⟩ : Shape).Idx → EReal)
    (b : (⟨1, ![4096]⟩ : Shape).Idx → EReal) (r : Fin n) (j : Fin 4096) : EReal :=
  max ((∑ k : Fin 256, x (ix2 r k) * W (ix2 k j)) + b (ix1 j)) 0

/-- `lin` depends on its arrays only through row `r` of `x`, column `j` of `W` and entry `j` of `b`: two
    settings that agree there (a block of rows against the whole array; a permuted weight matrix read at the
    permuted column) give the same entry. -/
theorem lin_congr {n n' : Nat} {x : (⟨2, ![n, 256]⟩ : Shape).Idx → EReal} {x' : (⟨2, ![n', 256]⟩ : Shape).Idx → EReal}
    {W W' : (⟨2, ![256, 4096]⟩ : Shape).Idx → EReal} {b b' : (⟨1, ![4096]⟩ : Shape).Idx → EReal}
    {r : Fin n} {r' : Fin n'} {j j' : Fin 4096}
    (hx : ∀ k : Fin 256, x (ix2 r k) = x' (ix2 r' k)) (hW : ∀ k : Fin 256, W (ix2 k j) = W' (ix2 k j'))
    (hb : b (ix1 j) = b' (ix1 j')) : lin x W b r j = lin x' W' b' r' j' := by
  unfold lin
  rw [hb, Finset.sum_congr rfl fun k _ => by rw [hx k, hW k]]

/-- One entry of the interaction map: the two rectified maps contracted over the 16 heads, over sixteen, through tanh. -/
def inter {n : Nat} (x y : (⟨2, ![n, 256]⟩ : Shape).Idx → EReal)
    (Wd : (⟨2, ![256, 4096]⟩ : Shape).Idx → EReal) (bd : (⟨1, ![4096]⟩ : Shape).Idx → EReal)
    (Wp : (⟨2, ![256, 4096]⟩ : Shape).Idx → EReal) (bp : (⟨1, ![4096]⟩ : Shape).Idx → EReal)
    (r : Fin n) (d p : Fin 256) : EReal :=
  Ideal.tanh (Ideal.div (∑ h : Fin 16, lin x Wd bd r (colDH d h) * lin y Wp bp r (colHD h p))
    (Ideal.ofBits .f32 0x41800000#32))

/-- The first result: each entry of `x` times tanh of its row of the interaction map summed over `p`. -/
def outD {n : Nat} (x y : (⟨2, ![n, 256]⟩ : Shape).Idx → EReal)
    (Wd : (⟨2, ![256, 4096]⟩ : Shape).Idx → EReal) (bd : (⟨1, ![4096]⟩ : Shape).Idx → EReal)
    (Wp : (⟨2, ![256, 4096]⟩ : Shape).Idx → EReal) (bp : (⟨1, ![4096]⟩ : Shape).Idx → EReal) :
    (⟨2, ![n, 256]⟩ : Shape).Idx → EReal :=
  fun i => x i * Ideal.tanh (∑ p : Fin 256, inter x y Wd bd Wp bp (i 0) (i 1) p)

/-- The second result: each entry of `y` times tanh of its column of the interaction map summed over `d`. -/
def outP {n : Nat} (x y : (⟨2, ![n, 256]⟩ : Shape).Idx → EReal)
    (Wd : (⟨2, ![256, 4096]⟩ : Shape).Idx → EReal) (bd : (⟨1, ![4096]⟩ : Shape).Idx → EReal)
    (Wp : (⟨2, ![256, 4096]⟩ : Shape).Idx → EReal) (bp : (⟨1, ![4096]⟩ : Shape).Idx → EReal) :
    (⟨2, ![n, 256]⟩ : Shape).Idx → EReal :=
  fun i => y i * Ideal.tanh (∑ d : Fin 256, inter x y Wd bd Wp bp (i 0) d (i 1))

end Cert.Interaction

end
-- ==== Proof.Scale.lean ====
/-
  The two float constants of the interaction map's scale, as the extended reals their patterns denote,
  and the one law that joins the two programs: multiplying by 1/16 is dividing by 16 on every extended
  real, the infinities included.
-/
import Idealize.ShloMosaic.PureOps.Ideal

noncomputable section

namespace Cert.Interaction

open Idealize.ShloMosaic

/-- The pattern `0x41800000` denotes the real sixteen: sign 0, exponent 131, significand 0. -/
theorem ofBits_sixteen : Ideal.ofBits .f32 0x41800000#32 = ((16 : ℝ) : EReal) := by
  simp [Ideal.ofBits, Ideal.ieee, -EReal.coe_mul]; norm_num

/-- The pattern `0x3D800000` denotes one sixteenth exactly: sign 0, exponent 123, significand 0. -/
theorem ofBits_sixteenth : Ideal.ofBits .f32 0x3D800000#32 = ((1 / 16 : ℝ) : EReal) := by
  simp [Ideal.ofBits, Ideal.ieee, -EReal.coe_mul]; norm_num

/-- A product with one sixteenth is the quotient by sixteen, on every extended real: sixteen is a nonzero
    real, so the quotient is the product with its reciprocal (at `±∞` both sides are that infinity). -/
theorem mul_sixteenth_eq_div_sixteen (x : EReal) :
    x * Ideal.ofBits .f32 0x3D800000#32 = Ideal.div x (Ideal.ofBits .f32 0x41800000#32) := by
  rw [ofBits_sixteen, ofBits_sixteenth, Ideal.div_coe (by norm_num : (16 : ℝ) ≠ 0)]

end Cert.Interaction

end
-- ==== Proof.Body.lean ====
/-
  What the kernel body computes from its six loaded blocks, read one entry at a time.

  With `v` a block of 32 rows, `W` a [256, 4096] weight block and `b` a bias vector, the body forms the
  rectified projection `max (v · W + b) 0` twice, reads each [32, 4096] result as [32, 16, 256] (column
  `256 h + d`), contracts the two over the 16 heads row by row, multiplies by one sixteenth, applies tanh,
  sums the [32, 256, 256] map over its last and over its middle axis, applies tanh and multiplies by the
  loaded rows. Every float format change is the identity on extended reals.
-/
import proofs.«127848_j88983132438605_1_alg».proof.Proof.Gen.KernelIdeal.Skeleton
import proofs.«127848_j88983132438605_1_alg».proof.Proof.Spec
import proofs.«127848_j88983132438605_1_alg».proof.Proof.Scale
import Idealize.ShloMosaic.Lib.Pipeline.Value
import Idealize.ShloMosaic.Lib.ValueIdx
import Idealize.ShloMosaic.PureOps.Ideal.Laws

noncomputable section

namespace Cert.Interaction.Body

open Cert.KernelIdeal Cert.KernelIdeal.Gen Idealize.ShloMosaic Idealize.ShloMosaic.ValueIdx Cert.Interaction

/-! ## The projection's product: rows against columns -/

theorem projL_0 (i : S32x4096.Idx) (q : dot_S32x256_S256x4096_S32x4096_1_0_0_1_n_n.contr.Idx) :
    (dot_S32x256_S256x4096_S32x4096_1_0_0_1_n_n.lhsIdx i q 0).val = (i 0).val := by
  unfold DotDims.lhsIdx
  rw [dif_neg (show ¬(0 : Fin S32x256.rank) ∈ dot_S32x256_S256x4096_S32x4096_1_0_0_1_n_n.lhsBatch by decide), dif_pos (show (0 : Fin S32x256.rank) ∈ dot_S32x256_S256x4096_S32x4096_1_0_0_1_n_n.lhsNonContracting by decide)]
  rfl
theorem projL_1 (i : S32x4096.Idx) (q : dot_S32x256_S256x4096_S32x4096_1_0_0_1_n_n.contr.Idx) :
    (dot_S32x256_S256x4096_S32x4096_1_0_0_1_n_n.lhsIdx i q 1).val = (q ⟨0, by decide⟩).val :=
  dot_S32x256_S256x4096_S32x4096_1_0_0_1_n_n.lhsIdx_val_of_single rfl i q
theorem projR_0 (i : S32x4096.Idx) (q : dot_S32x256_S256x4096_S32x4096_1_0_0_1_n_n.contr.Idx) :
    (dot_S32x256_S256x4096_S32x4096_1_0_0_1_n_n.rhsIdx i q 0).val = (q ⟨0, by decide⟩).val :=
  dot_S32x256_S256x4096_S32x4096_1_0_0_1_n_n.rhsIdx_val_of_single rfl i q
theorem projR_1 (i : S32x4096.Idx) (q : dot_S32x256_S256x4096_S32x4096_1_0_0_1_n_n.contr.Idx) :
    (dot_S32x256_S256x4096_S32x4096_1_0_0_1_n_n.rhsIdx i q 1).val = (i 1).val := by
  unfold DotDims.rhsIdx
  rw [dif_neg (show ¬(1 : Fin S256x4096.rank) ∈ dot_S32x256_S256x4096_S32x4096_1_0_0_1_n_n.rhsBatch by decide), dif_pos (show (1 : Fin S256x4096.rank) ∈ dot_S32x256_S256x4096_S32x4096_1_0_0_1_n_n.rhsNonContracting by decide)]
  rfl

/-- The matrix product into a zero accumulator at (r, j): row r of the left against column j of the right. -/
theorem proj_dot (v : FVec Ideal S32x256 .bf16) (W : FVec Ideal S256x4096 .bf16) (r : Fin 32) (j : Fin 4096) :
    matmul dot_S32x256_S256x4096_S32x4096_1_0_0_1_n_n none v W (constant S32x4096 .f32 0x00000000#32) (ix2 r j)
      = ∑ k : Fin 256, v (ix2 r k) * W (ix2 k j) := by
  simp only [matmul]
  rw [Ideal.matmul_constant_zero_apply, ← Equiv.sum_comp (ValueIdx.contrEquiv1 dot_S32x256_S256x4096_S32x4096_1_0_0_1_n_n 256 rfl rfl).symm]
  refine Finset.sum_congr rfl fun k _ => ?_
  have hk := ValueIdx.contrEquiv1_symm_val dot_S32x256_S256x4096_S32x4096_1_0_0_1_n_n 256 rfl rfl k
  have el : dot_S32x256_S256x4096_S32x4096_1_0_0_1_n_n.lhsIdx (ix2 r j) ((ValueIdx.contrEquiv1 dot_S32x256_S256x4096_S32x4096_1_0_0_1_n_n 256 rfl rfl).symm k) = ix2 r k := funext fun a => Fin.ext (by
    match a with
    | ⟨0, _⟩ => exact projL_0 _ _
    | ⟨1, _⟩ => exact (projL_1 _ _).trans hk)
  have er : dot_S32x256_S256x4096_S32x4096_1_0_0_1_n_n.rhsIdx (ix2 r j) ((ValueIdx.contrEquiv1 dot_S32x256_S256x4096_S32x4096_1_0_0_1_n_n 256 rfl rfl).symm k) = ix2 k j := funext fun a => Fin.ext (by
    match a with
    | ⟨0, _⟩ => exact (projR_0 _ _).trans hk
    | ⟨1, _⟩ => exact projR_1 _ _)
  rw [el, er]

/-- The bias vector cast to one row and broadcast over the 32 rows reads entry j in every row. -/
theorem bias_entry (b : FVec Ideal S4096 .f32) (r : Fin 32) (j : Fin 4096) :
    broadcastTo S32x4096 (shapeCast S1x4096 b shapeCasts_S4096_S1x4096) broadcasts_S1x4096_S32x4096 (ix2 r j)
      = b (ix1 j) := by
  refine (broadcastTo_apply _ broadcasts_S1x4096_S32x4096 (ix2 r j) (ix2 (0 : Fin 1) j) (fun a => ?_)).trans ?_
  · match a with
    | ⟨0, _⟩ => show 0 = if (1 : Nat) = 1 then 0 else _; rw [if_pos rfl]
    | ⟨1, _⟩ => show j.val = if (4096 : Nat) = 1 then 0 else j.val; rw [if_neg (by decide)]
  · exact shapeCast_apply b shapeCasts_S4096_S1x4096 (ix2 (0 : Fin 1) j) (ix1 j)
      (by rewrite [Shape.rowMajor_val_one, Shape.rowMajor_val_two]; show j.val = 0 * 4096 + j.val; omega)

/-- The rectified projection of a block of rows, as the body spells it. -/
def proj (v : FVec Ideal S32x256 .f32) (W : FVec Ideal S256x4096 .bf16) (b : FVec Ideal S4096 .f32) : FVec Ideal S32x4096 .f32 :=
  maximumf (addf (matmul dot_S32x256_S256x4096_S32x4096_1_0_0_1_n_n none (truncf .bf16 v bitsLt_bf16_f32)
      (shapeCast S256x4096 W shapeCasts_S256x4096_S256x4096) (constant S32x4096 .f32 0x00000000#32))
    (broadcastTo S32x4096 (shapeCast S1x4096 b shapeCasts_S4096_S1x4096) broadcasts_S1x4096_S32x4096))
    (broadcast S32x4096 (Scalar.ofBits .f32 0x00000000#32))

/-- Its entry (r, j) is the specification's `lin`. -/
theorem proj_apply (v : FVec Ideal S32x256 .f32) (W : FVec Ideal S256x4096 .bf16) (b : FVec Ideal S4096 .f32) (r : Fin 32) (j : Fin 4096) :
    proj v W b (ix2 r j) = lin v W b r j := by
  unfold proj lin
  rw [maximumf_apply, addf_apply, broadcast_apply, proj_dot, bias_entry, shapeCast_self]
  show max ((∑ k : Fin 256, v (ix2 r k) * W (ix2 k j)) + b (ix1 j)) (Ideal.ofBits .f32 0x00000000#32) = _
  rw [Ideal.ofBits_zero_f32]

/-! ## The head split and the batched product -/

/-- A [32, 4096] value read as [32, 16, 256]. -/
def heads (u : FVec Ideal S32x4096 .f32) : FVec Ideal S32x16x256 .bf16 :=
  shapeCast S32x16x256 (truncf .bf16 u bitsLt_bf16_f32) shapeCasts_S32x4096_S32x16x256

/-- Entry (r, h, d) of the split is column `256 h + d` of row r. -/
theorem heads_apply (u : FVec Ideal S32x4096 .f32) (r : Fin 32) (h : Fin 16) (d : Fin 256) :
    heads u (ix3 r h d) = u (ix2 r (colHD h d)) := by
  unfold heads
  refine (shapeCast_apply _ shapeCasts_S32x4096_S32x16x256 (ix3 r h d) (ix2 r (colHD h d)) ?_).trans rfl
  rewrite [Shape.rowMajor_val_two, Shape.rowMajor_val_three]
  show r.val * 4096 + (h.val * 256 + d.val) = (r.val * 16 + h.val) * 256 + d.val
  omega

theorem headL_0 (i : S32x256x256.Idx) (q : dot_S32x16x256_S32x16x256_S32x256x256_1_1_2_2_0_0.contr.Idx) :
    (dot_S32x16x256_S32x16x256_S32x256x256_1_1_2_2_0_0.lhsIdx i q 0).val = (i 0).val := by
  unfold DotDims.lhsIdx
  rw [dif_pos (show (0 : Fin S32x16x256.rank) ∈ dot_S32x16x256_S32x16x256_S32x256x256_1_1_2_2_0_0.lhsBatch by decide)]
  rfl
theorem headL_1 (i : S32x256x256.Idx) (q : dot_S32x16x256_S32x16x256_S32x256x256_1_1_2_2_0_0.contr.Idx) :
    (dot_S32x16x256_S32x16x256_S32x256x256_1_1_2_2_0_0.lhsIdx i q 1).val = (q ⟨0, by decide⟩).val :=
  dot_S32x16x256_S32x16x256_S32x256x256_1_1_2_2_0_0.lhsIdx_val_of_single rfl i q
theorem headL_2 (i : S32x256x256.Idx) (q : dot_S32x16x256_S32x16x256_S32x256x256_1_1_2_2_0_0.contr.Idx) :
    (dot_S32x16x256_S32x16x256_S32x256x256_1_1_2_2_0_0.lhsIdx i q 2).val = (i 1).val := by
  unfold DotDims.lhsIdx
  rw [dif_neg (show ¬(2 : Fin S32x16x256.rank) ∈ dot_S32x16x256_S32x16x256_S32x256x256_1_1_2_2_0_0.lhsBatch by decide), dif_pos (show (2 : Fin S32x16x256.rank) ∈ dot_S32x16x256_S32x16x256_S32x256x256_1_1_2_2_0_0.lhsNonContracting by decide)]
  rfl
theorem headR_0 (i : S32x256x256.Idx) (q : dot_S32x16x256_S32x16x256_S32x256x256_1_1_2_2_0_0.contr.Idx) :
    (dot_S32x16x256_S32x16x256_S32x256x256_1_1_2_2_0_0.rhsIdx i q 0).val = (i 0).val := by
  unfold DotDims.rhsIdx
  rw [dif_pos (show (0 : Fin S32x16x256.rank) ∈ dot_S32x16x256_S32x16x256_S32x256x256_1_1_2_2_0_0.rhsBatch by decide)]
  rfl
theorem headR_1 (i : S32x256x256.Idx) (q : dot_S32x16x256_S32x16x256_S32x256x256_1_1_2_2_0_0.contr.Idx) :
    (dot_S32x16x256_S32x16x256_S32x256x256_1_1_2_2_0_0.rhsIdx i q 1).val = (q ⟨0, by decide⟩).val :=
  dot_S32x16x256_S32x16x256_S32x256x256_1_1_2_2_0_0.rhsIdx_val_of_single rfl i q
theorem headR_2 (i : S32x256x256.Idx) (q : dot_S32x16x256_S32x16x256_S32x256x256_1_1_2_2_0_0.contr.Idx) :
    (dot_S32x16x256_S32x16x256_S32x256x256_1_1_2_2_0_0.rhsIdx i q 2).val = (i 2).val := by
  unfold DotDims.rhsIdx
  rw [dif_neg (show ¬(2 : Fin S32x16x256.rank) ∈ dot_S32x16x256_S32x16x256_S32x256x256_1_1_2_2_0_0.rhsBatch by decide), dif_pos (show (2 : Fin S32x16x256.rank) ∈ dot_S32x16x256_S32x16x256_S32x256x256_1_1_2_2_0_0.rhsNonContracting by decide)]
  rfl

/-- The batched product into a zero accumulator at (r, d, p): in row r, the heads of column d of the left against
    the heads of column p of the right. -/
theorem head_dot (A B : FVec Ideal S32x16x256 .bf16) (r : Fin 32) (d p : Fin 256) :
    matmul dot_S32x16x256_S32x16x256_S32x256x256_1_1_2_2_0_0 none A B (constant S32x256x256 .f32 0x00000000#32) (ix3 r d p)
      = ∑ h : Fin 16, A (ix3 r h d) * B (ix3 r h p) := by
  simp only [matmul]
  rw [Ideal.matmul_constant_zero_apply, ← Equiv.sum_comp (ValueIdx.contrEquiv1 dot_S32x16x256_S32x16x256_S32x256x256_1_1_2_2_0_0 16 rfl rfl).symm]
  refine Finset.sum_congr rfl fun k _ => ?_
  have hk := ValueIdx.contrEquiv1_symm_val dot_S32x16x256_S32x16x256_S32x256x256_1_1_2_2_0_0 16 rfl rfl k
  have el : dot_S32x16x256_S32x16x256_S32x256x256_1_1_2_2_0_0.lhsIdx (ix3 r d p) ((ValueIdx.contrEquiv1 dot_S32x16x256_S32x16x256_S32x256x256_1_1_2_2_0_0 16 rfl rfl).symm k) = ix3 r k d := funext fun a => Fin.ext (by
    match a with
    | ⟨0, _⟩ => exact headL_0 _ _
    | ⟨1, _⟩ => exact (headL_1 _ _).trans hk
    | ⟨2, _⟩ => exact headL_2 _ _)
  have er : dot_S32x16x256_S32x16x256_S32x256x256_1_1_2_2_0_0.rhsIdx (ix3 r d p) ((ValueIdx.contrEquiv1 dot_S32x16x256_S32x16x256_S32x256x256_1_1_2_2_0_0 16 rfl rfl).symm k) = ix3 r k p := funext fun a => Fin.ext (by
    match a with
    | ⟨0, _⟩ => exact headR_0 _ _
    | ⟨1, _⟩ => exact (headR_1 _ _).trans hk
    | ⟨2, _⟩ => exact headR_2 _ _)
  rw [el, er]

/-! ## The two sums -/

/-- The sum over the last axis at (r, d). -/
theorem sum_last (src : FVec Ideal S32x256x256 .f32) (r : Fin 32) (d : Fin 256) :
    multiReduction .add [2] S32x256 src 0x00000000#32 reduces_S32x256x256_S32x256 (.inl rfl) rfl (ix2 r d)
      = ∑ p : Fin 256, src (ix3 r d p) := by
  refine (Ideal.reduceAdd_single reduces_S32x256x256_S32x256 src (ix2 r d)).trans ?_
  refine Finset.sum_congr rfl fun k _ => ?_
  exact congrArg src (funext fun a => Fin.ext (by match a with | ⟨0, _⟩ => rfl | ⟨1, _⟩ => rfl | ⟨2, _⟩ => rfl))

/-- The sum over the middle axis at (r, p). -/
theorem sum_mid (src : FVec Ideal S32x256x256 .f32) (r : Fin 32) (p : Fin 256) :
    multiReduction .add [1] S32x256 src 0x00000000#32 reduces_S32x256x256_S32x256_2 (.inl rfl) rfl (ix2 r p)
      = ∑ d : Fin 256, src (ix3 r d p) := by
  refine (Ideal.reduceAdd_single reduces_S32x256x256_S32x256_2 src (ix2 r p)).trans ?_
  refine Finset.sum_congr rfl fun k _ => ?_
  exact congrArg src (funext fun a => Fin.ext (by match a with | ⟨0, _⟩ => rfl | ⟨1, _⟩ => rfl | ⟨2, _⟩ => rfl))

/-! ## The payloads -/

variable (v0 v1 : FVec Ideal S32x256 .f32) (v4 : FVec Ideal S256x4096 .bf16) (v6 : FVec Ideal S4096 .f32)
  (v8 : FVec Ideal S256x4096 .bf16) (v10 : FVec Ideal S4096 .f32)

/-- The interaction map's payload is tanh of the scaled batched product of the two split projections. -/
theorem pay1_eq : k0_pay1 (F := Ideal) v0 v1 v4 v6 v8 v10
    = tanh (mulf (matmul dot_S32x16x256_S32x16x256_S32x256x256_1_1_2_2_0_0 none (heads (proj v0 v4 (shapeCast S4096 v6 shapeCasts_S4096_S4096))) (heads (proj v1 v8 v10))
        (constant S32x256x256 .f32 0x00000000#32)) (broadcast S32x256x256 (Scalar.ofBits .f32 0x3D800000#32))) := rfl

/-- Its entry (r, d, p). -/
theorem pay1_apply (r : Fin 32) (d p : Fin 256) :
    k0_pay1 (F := Ideal) v0 v1 v4 v6 v8 v10 (ix3 r d p)
      = Ideal.tanh ((∑ h : Fin 16, lin v0 v4 v6 r (colHD h d) * lin v1 v8 v10 r (colHD h p)) * Ideal.ofBits .f32 0x3D800000#32) := by
  rw [pay1_eq, shapeCast_self]
  show Ideal.tanh (matmul dot_S32x16x256_S32x16x256_S32x256x256_1_1_2_2_0_0 none (heads (proj v0 v4 v6)) (heads (proj v1 v8 v10))
        (constant S32x256x256 .f32 0x00000000#32) (ix3 r d p) * Ideal.ofBits .f32 0x3D800000#32) = _
  rw [head_dot, Finset.sum_congr rfl fun h _ => by rw [heads_apply, heads_apply, proj_apply, proj_apply]]

/-- The first stored block at (r, d): the loaded entry times tanh of the map's row summed over p. -/
theorem pay2_apply (r : Fin 32) (d : Fin 256) :
    k0_pay2 (F := Ideal) v0 v1 v4 v6 v8 v10 (ix2 r d) = v0 (ix2 r d) * Ideal.tanh (∑ p : Fin 256, k0_pay1 (F := Ideal) v0 v1 v4 v6 v8 v10 (ix3 r d p)) := by
  show v0 (ix2 r d) * Ideal.tanh (multiReduction .add [2] S32x256 (k0_pay1 (F := Ideal) v0 v1 v4 v6 v8 v10) 0x00000000#32 reduces_S32x256x256_S32x256 (.inl rfl) rfl (ix2 r d)) = _
  rw [sum_last]

/-- The second stored block at (r, p): the loaded entry times tanh of the map's column summed over d. -/
theorem pay3_apply (r : Fin 32) (p : Fin 256) :
    k0_pay3 (F := Ideal) v0 v1 v4 v6 v8 v10 (ix2 r p) = v1 (ix2 r p) * Ideal.tanh (∑ d : Fin 256, k0_pay1 (F := Ideal) v0 v1 v4 v6 v8 v10 (ix3 r d p)) := by
  show v1 (ix2 r p) * Ideal.tanh (multiReduction .add [1] S32x256 (k0_pay1 (F := Ideal) v0 v1 v4 v6 v8 v10) 0x00000000#32 reduces_S32x256x256_S32x256_2 (.inl rfl) rfl (ix2 r p)) = _
  rw [sum_mid]

/-! ## The blocks against the arrays -/

section Arrays
variable {n : Nat} (X Y : (⟨2, ![n, 256]⟩ : Shape).Idx → EReal)
  (Wd : (⟨2, ![256, 4096]⟩ : Shape).Idx → EReal) (bd : (⟨1, ![4096]⟩ : Shape).Idx → EReal)
  (Wp : (⟨2, ![256, 4096]⟩ : Shape).Idx → EReal) (bp : (⟨1, ![4096]⟩ : Shape).Idx → EReal)
  (R : Fin 32 → Fin n)
  (hx : ∀ (r : Fin 32) (k : Fin 256), v0 (ix2 r k) = X (ix2 (R r) k))
  (hy : ∀ (r : Fin 32) (k : Fin 256), v1 (ix2 r k) = Y (ix2 (R r) k))
  (hWd : ∀ (k : Fin 256) (h : Fin 16) (d : Fin 256), v4 (ix2 k (colHD h d)) = Wd (ix2 k (colDH d h)))
  (hbd : ∀ (h : Fin 16) (d : Fin 256), v6 (ix1 (colHD h d)) = bd (ix1 (colDH d h)))
  (hWp : ∀ (k : Fin 256) (j : Fin 4096), v8 (ix2 k j) = Wp (ix2 k j))
  (hbp : ∀ j : Fin 4096, v10 (ix1 j) = bp (ix1 j))

include hx hy hWd hbd hWp hbp

/-- When the first two blocks are 32 rows `R r` of two arrays, the third and fourth the drug weights and bias with their
    columns permuted from d-major to h-major order, and the last two the protein weights and bias, the body's
    interaction map is the specification's at rows `R r`: the permuted column `256 h + d` of the block is column
    `16 d + h` of the array, and the product with one sixteenth is the quotient by sixteen. -/
theorem pay1_spec (r : Fin 32) (d p : Fin 256) :
    k0_pay1 (F := Ideal) v0 v1 v4 v6 v8 v10 (ix3 r d p) = inter X Y Wd bd Wp bp (R r) d p := by
  rw [pay1_apply, mul_sixteenth_eq_div_sixteen]
  unfold inter
  rw [Finset.sum_congr rfl fun h _ => by
    rw [lin_congr (x' := X) (W' := Wd) (b' := bd) (r' := R r) (j' := colDH d h) (hx r) (fun k => hWd k h d) (hbd h d),
      lin_congr (x' := Y) (W' := Wp) (b' := bp) (r' := R r) (j' := colHD h p) (hy r) (fun k => hWp k _) (hbp _)]]

/-- So the first stored block is the specification's first result at rows `R r`. -/
theorem pay2_spec (r : Fin 32) (d : Fin 256) :
    k0_pay2 (F := Ideal) v0 v1 v4 v6 v8 v10 (ix2 r d) = outD X Y Wd bd Wp bp (ix2 (R r) d) := by
  rw [pay2_apply, hx, Finset.sum_congr rfl fun p _ => pay1_spec v0 v1 v4 v6 v8 v10 X Y Wd bd Wp bp R hx hy hWd hbd hWp hbp r d p]
  rfl

/-- And the second stored block the second result. -/
theorem pay3_spec (r : Fin 32) (p : Fin 256) :
    k0_pay3 (F := Ideal) v0 v1 v4 v6 v8 v10 (ix2 r p) = outP X Y Wd bd Wp bp (ix2 (R r) p) := by
  rw [pay3_apply, hy, Finset.sum_congr rfl fun d _ => pay1_spec v0 v1 v4 v6 v8 v10 X Y Wd bd Wp bp R hx hy hWd hbd hWp hbp r d p]
  rfl

end Arrays

end Cert.Interaction.Body

end
-- ==== Proof.KernelHost.lean ====
/-
  What the kernel's region finds in the three arrays its host prefix writes.

  The drug weights [256, 4096] are reshaped to [256, 256, 16] (column `16 d + h` becomes (d, h)), transposed to
  [256, 16, 256] and reshaped back, so column `256 h + d` of the result is column `16 d + h` of the argument; the
  drug bias goes the same way through [256, 16] and [16, 256]; the protein weights only change float format. At the
  extended reals a format change is the identity.
-/
import proofs.«127848_j88983132438605_1_alg».proof.Proof.Gen.KernelIdeal.Frame
import proofs.«127848_j88983132438605_1_alg».proof.Proof.Spec
import Idealize.ShloMosaic.Lib.Pipeline.Value
import Idealize.ShloMosaic.Lib.ValueIdx
import Idealize.ShloMosaic.Lib.StableHlo.Run

noncomputable section

namespace Cert.Interaction.Host

open Cert.KernelIdeal Cert.KernelIdeal.Gen Idealize.ShloMosaic Idealize.ShloMosaic.TcCoe Idealize.SL.Sem
open Idealize.ShloMosaic.ValueIdx Idealize.ShloMosaic.StableHlo Cert.Interaction

variable (m : (ℓ : Loc nD τ sig) → Buf (Elt Ideal) ℓ)

/-- The permuted drug weights as the host operations' term of the argument (the closing format change is the identity). -/
theorem wd_term (c : Dev nD) : (V m c main_v3 : S256x4096.Idx → EReal)
    = shapeCast S256x4096 (transpose S256x16x256 [0, 2, 1]
        (shapeCast S256x256x16 (m ((c : Thread nD τ).loc main_arg2) : S256x4096.Idx → EReal) shapeCasts_S256x4096_S256x256x16)
        transposes_S256x256x16_S256x16x256_0_2_1) shapeCasts_S256x16x256_S256x4096 := by
  dsimp only [V, hostOps0]
  after_results
  funext i
  rfl

/-- Column `256 h + d` of the permuted drug weights is column `16 d + h` of the argument. -/
theorem wd_entry (c : Dev nD) (k : Fin 256) (h : Fin 16) (d : Fin 256) :
    (V m c main_v3 : S256x4096.Idx → EReal) (ix2 k (colHD h d))
      = (m ((c : Thread nD τ).loc main_arg2) : S256x4096.Idx → EReal) (ix2 k (colDH d h)) := by
  have hk := k.isLt; have hh := h.isLt; have hd := d.isLt
  rw [wd_term]
  refine (shapeCast_apply _ shapeCasts_S256x16x256_S256x4096 (ix2 k (colHD h d)) (ix3 k h d) ?_).trans ?_
  · rewrite [Shape.rowMajor_val_two, Shape.rowMajor_val_three]
    show (k.val * 16 + h.val) * 256 + d.val = k.val * 4096 + (h.val * 256 + d.val)
    omega
  refine (transpose_apply [0, 2, 1] _ transposes_S256x256x16_S256x16x256_0_2_1 (ix3 k h d) (ix3 k d h) (fun b => ?_)).trans ?_
  · match b with | ⟨0, _⟩ => rfl | ⟨1, _⟩ => rfl | ⟨2, _⟩ => rfl
  refine shapeCast_apply _ shapeCasts_S256x4096_S256x256x16 (ix3 k d h) (ix2 k (colDH d h)) ?_
  rewrite [Shape.rowMajor_val_two, Shape.rowMajor_val_three]
  show k.val * 4096 + (d.val * 16 + h.val) = (k.val * 256 + d.val) * 16 + h.val
  omega

/-- The permuted drug bias as the host operations' term of the argument. -/
theorem bd_term (c : Dev nD) : (V m c main_v6 : S4096.Idx → EReal)
    = shapeCast S4096 (transpose S16x256 [1, 0]
        (shapeCast S256x16 (m ((c : Thread nD τ).loc main_arg3) : S4096.Idx → EReal) shapeCasts_S4096_S256x16)
        transposes_S256x16_S16x256_1_0) shapeCasts_S16x256_S4096 := by
  dsimp only [V, hostOps0]
  after_results
  funext i
  rfl

/-- Entry `256 h + d` of the permuted drug bias is entry `16 d + h` of the argument. -/
theorem bd_entry (c : Dev nD) (h : Fin 16) (d : Fin 256) :
    (V m c main_v6 : S4096.Idx → EReal) (ix1 (colHD h d))
      = (m ((c : Thread nD τ).loc main_arg3) : S4096.Idx → EReal) (ix1 (colDH d h)) := by
  have hh := h.isLt; have hd := d.isLt
  rw [bd_term]
  refine (shapeCast_apply _ shapeCasts_S16x256_S4096 (ix1 (colHD h d)) (ix2 h d) ?_).trans ?_
  · rewrite [Shape.rowMajor_val_one, Shape.rowMajor_val_two]
    show h.val * 256 + d.val = h.val * 256 + d.val
    rfl
  refine (transpose_apply [1, 0] _ transposes_S256x16_S16x256_1_0 (ix2 h d) (ix2 d h) (fun b => ?_)).trans ?_
  · match b with | ⟨0, _⟩ => rfl | ⟨1, _⟩ => rfl
  refine shapeCast_apply _ shapeCasts_S4096_S256x16 (ix2 d h) (ix1 (colDH d h)) ?_
  rewrite [Shape.rowMajor_val_one, Shape.rowMajor_val_two]
  show d.val * 16 + h.val = d.val * 16 + h.val
  rfl

/-- The protein weights as the region finds them are the argument's. -/
theorem wp_term (c : Dev nD) : (V m c main_v7 : S256x4096.Idx → EReal)
    = (m ((c : Thread nD τ).loc main_arg4) : S256x4096.Idx → EReal) := by
  dsimp only [V, hostOps0]
  after_results
  funext i
  rfl

end Cert.Interaction.Host

end
-- ==== Proof.KernelValue.lean ====
/-
  The kernel's two result arrays after its run are the specification's `outD` and `outP` of its six arguments.

  Grid point `t` stages rows `32 t … 32 t + 31` of the two [4096, 256] inputs and the whole of the four weight and
  bias arrays, and writes back rows `32 t … 32 t + 31` of each result. What it writes is the body's payload of the
  staged blocks, which is the specification at those rows; the 128 row blocks tile each result array.
-/
import proofs.«127848_j88983132438605_1_alg».proof.Proof.Gen.KernelIdeal.Value
import proofs.«127848_j88983132438605_1_alg».proof.Proof.Body
import proofs.«127848_j88983132438605_1_alg».proof.Proof.KernelHost

noncomputable section

namespace Cert.Interaction.Kernel

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.Interaction

variable (m : (ℓ : Loc nD τ sig) → Buf (Elt Ideal) ℓ) (ρ : Dev nD → PrngReg)

theorem zero_offsets2 : (![0, 0] : Fin 2 → Nat) = fun _ => 0 := funext fun a => by fin_cases a <;> rfl
theorem zero_offsets1 : (![0] : Fin 1 → Nat) = fun _ => 0 := funext fun a => by fin_cases a <;> rfl

/-- The printed index maps, decided over the 128 grid points: the two inputs and the two results move one row block
    per point, the weights and biases stay at their one block. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row `32 t + r` of the arrays: row `r` of grid point `t`'s block. -/
def row (t : Fin cfg0.N) (r : Fin 32) : Fin 4096 :=
  ⟨t.val * 32 + r.val, by have := t.isLt; have hN : cfg0.N = 128 := N_0; have := r.isLt; omega⟩

/-! ## The six staged blocks, at their literal types -/

abbrev xblk (c : Dev nD) (t : Fin cfg0.N) : FVec Ideal S32x256 .f32 := iblk m c 0 t
abbrev yblk (c : Dev nD) (t : Fin cfg0.N) : FVec Ideal S32x256 .f32 := iblk m c 1 t
abbrev wdblk (c : Dev nD) (t : Fin cfg0.N) : FVec Ideal S256x4096 .bf16 := iblk m c 2 t
abbrev bdblk (c : Dev nD) (t : Fin cfg0.N) : FVec Ideal S4096 .f32 := iblk m c 3 t
abbrev wpblk (c : Dev nD) (t : Fin cfg0.N) : FVec Ideal S256x4096 .bf16 := iblk m c 4 t
abbrev bpblk (c : Dev nD) (t : Fin cfg0.N) : FVec Ideal S4096 .f32 := iblk m c 5 t

/-- The argument arrays, at their literal types. -/
abbrev argX (c : Dev nD) : S4096x256.Idx → EReal := m ((c : Thread nD τ).loc main_arg0)
abbrev argY (c : Dev nD) : S4096x256.Idx → EReal := m ((c : Thread nD τ).loc main_arg1)
abbrev argWd (c : Dev nD) : S256x4096.Idx → EReal := m ((c : Thread nD τ).loc main_arg2)
abbrev argBd (c : Dev nD) : S4096.Idx → EReal := m ((c : Thread nD τ).loc main_arg3)
abbrev argWp (c : Dev nD) : S256x4096.Idx → EReal := m ((c : Thread nD τ).loc main_arg4)
abbrev argBp (c : Dev nD) : S4096.Idx → EReal := m ((c : Thread nD τ).loc main_arg5)

/-- Row r of the first input's block at point t is row `32 t + r` of the argument. -/
theorem xblk_apply (c : Dev nD) (t : Fin cfg0.N) (r : Fin 32) (k : Fin 256) :
    xblk m c t (ix2 r k) = argX m c (ix2 (row t r) k) := by
  obtain ⟨e0, e1, -⟩ := block_indices t
  show V m c main_arg0 (((cfg0.win 0).blk t).view.emb (ix2 r k)) = _
  refine (congrFun (V_main_arg0 m c) _).trans (congrArg (argX m c) (funext fun a => Fin.ext ?_))
  match a with
  | ⟨0, _⟩ => show win0_0.index t (0 : Fin 2) * 32 + 1 * r.val = t.val * 32 + r.val; rw [e0]; omega
  | ⟨1, _⟩ => show win0_0.index t (1 : Fin 2) * 256 + 1 * k.val = k.val; rw [e1]; omega

/-- Row r of the second input's block at point t is row `32 t + r` of the argument. -/
theorem yblk_apply (c : Dev nD) (t : Fin cfg0.N) (r : Fin 32) (k : Fin 256) :
    yblk m c t (ix2 r k) = argY m c (ix2 (row t r) k) := by
  obtain ⟨-, -, e0, e1, -⟩ := block_indices t
  show V m c main_arg1 (((cfg0.win 1).blk t).view.emb (ix2 r k)) = _
  refine (congrFun (V_main_arg1 m c) _).trans (congrArg (argY m c) (funext fun a => Fin.ext ?_))
  match a with
  | ⟨0, _⟩ => show win0_1.index t (0 : Fin 2) * 32 + 1 * r.val = t.val * 32 + r.val; rw [e0]; omega
  | ⟨1, _⟩ => show win0_1.index t (1 : Fin 2) * 256 + 1 * k.val = k.val; rw [e1]; omega

/-- The staged drug weights are the permuted array whole: column `256 h + d` is column `16 d + h` of the argument. -/
theorem wdblk_apply (c : Dev nD) (t : Fin cfg0.N) (k : Fin 256) (h : Fin 16) (d : Fin 256) :
    wdblk m c t (ix2 k (colHD h d)) = argWd m c (ix2 k (colDH d h)) := by
  obtain ⟨-, -, -, -, e0, e1, -⟩ := block_indices t
  show V m c main_v3 (((cfg0.win 2).blk t).view.emb (ix2 k (colHD h d))) = _
  refine (congrArg (V m c main_v3 : S256x4096.Idx → EReal) (funext fun a => Fin.ext ?_)).trans (Host.wd_entry m c k h d)
  match a with
  | ⟨0, _⟩ => show win0_2.index t (0 : Fin 2) * 256 + 1 * k.val = k.val; rw [e0]; omega
  | ⟨1, _⟩ => show win0_2.index t (1 : Fin 2) * 4096 + 1 * (colHD h d).val = (colHD h d).val; rw [e1]; omega

/-- The staged drug bias likewise. -/
theorem bdblk_apply (c : Dev nD) (t : Fin cfg0.N) (h : Fin 16) (d : Fin 256) :
    bdblk m c t (ix1 (colHD h d)) = argBd m c (ix1 (colDH d h)) := by
  obtain ⟨-, -, -, -, -, -, e0, -⟩ := block_indices t
  show V m c main_v6 (((cfg0.win 3).blk t).view.emb (ix1 (colHD h d))) = _
  refine (congrArg (V m c main_v6 : S4096.Idx → EReal) (funext fun a => Fin.ext ?_)).trans (Host.bd_entry m c h d)
  match a with
  | ⟨0, _⟩ => show win0_3.index t (0 : Fin 1) * 4096 + 1 * (colHD h d).val = (colHD h d).val; rw [e0]; omega

/-- The staged protein weights are the argument's, entry by entry. -/
theorem wpblk_apply (c : Dev nD) (t : Fin cfg0.N) (k : Fin 256) (j : Fin 4096) :
    wpblk m c t (ix2 k j) = argWp m c (ix2 k j) := by
  obtain ⟨-, -, -, -, -, -, -, e0, e1, -⟩ := block_indices t
  show V m c main_v7 (((cfg0.win 4).blk t).view.emb (ix2 k j)) = _
  refine (congrArg (V m c main_v7 : S256x4096.Idx → EReal) (funext fun a => Fin.ext ?_)).trans (congrFun (Host.wp_term m c) (ix2 k j))
  match a with
  | ⟨0, _⟩ => show win0_4.index t (0 : Fin 2) * 256 + 1 * k.val = k.val; rw [e0]; omega
  | ⟨1, _⟩ => show win0_4.index t (1 : Fin 2) * 4096 + 1 * j.val = j.val; rw [e1]; omega

/-- The staged protein bias is the argument's. -/
theorem bpblk_apply (c : Dev nD) (t : Fin cfg0.N) (j : Fin 4096) :
    bpblk m c t (ix1 j) = argBp m c (ix1 j) := by
  obtain ⟨-, -, -, -, -, -, -, -, -, e0, -⟩ := block_indices t
  show V m c main_arg5 (((cfg0.win 5).blk t).view.emb (ix1 j)) = _
  refine (congrFun (V_main_arg5 m c) _).trans (congrArg (argBp m c) (funext fun a => Fin.ext ?_))
  match a with
  | ⟨0, _⟩ => show win0_5.index t (0 : Fin 1) * 4096 + 1 * j.val = j.val; rw [e0]; omega

/-! ## What each point writes back -/

/-- Point `t` writes back, to the first result, rows `32 t … 32 t + 31` of `outD` of the arguments. -/
theorem writeback_d (c : Dev nD) (t : Fin cfg0.N) :
    (dats m 0 c).flushed 6 t = ((cfg0.win 6).blk t).view.read (Elt Ideal)
      (outD (argX m c) (argY m c) (argWd m c) (argBd m c) (argWp m c) (argBp m c)) := by
  rw [flushed6]
  unfold out0_6
  rw [View.canon_unit_zero zero_offsets2]
  simp only [View.ld_unit_zero (S := S32x256) zero_offsets2, View.ld_unit_zero (S := S256x4096) zero_offsets2, View.ld_unit_zero (S := S4096) zero_offsets1]
  obtain ⟨-, -, -, -, -, -, -, -, -, -, e0, e1, -⟩ := block_indices t
  refine funext fun (j : S32x256.Idx) => ?_
  obtain ⟨r, d, rfl⟩ : ∃ (r : Fin 32) (d : Fin 256), j = ix2 r d := ⟨j 0, j 1, eq_ix2 j⟩
  show k0_pay2 (F := Ideal) (xblk m c t) (yblk m c t) (wdblk m c t) (bdblk m c t) (wpblk m c t) (bpblk m c t) (ix2 r d)
    = outD (argX m c) (argY m c) (argWd m c) (argBd m c) (argWp m c) (argBp m c) (((cfg0.win 6).blk t).view.emb (ix2 r d))
  have he : ((cfg0.win 6).blk t).view.emb (ix2 r d) = (ix2 (row t r) d : S4096x256.Idx) := funext fun a => Fin.ext (by
    match a with
    | ⟨0, _⟩ => show win0_6.index t (0 : Fin 2) * 32 + 1 * r.val = t.val * 32 + r.val; rw [e0]; omega
    | ⟨1, _⟩ => show win0_6.index t (1 : Fin 2) * 256 + 1 * d.val = d.val; rw [e1]; omega)
  rw [he]
  exact Body.pay2_spec (xblk m c t) (yblk m c t) (wdblk m c t) (bdblk m c t) (wpblk m c t) (bpblk m c t)
    (argX m c) (argY m c) (argWd m c) (argBd m c) (argWp m c) (argBp m c) (row t)
    (xblk_apply m c t) (yblk_apply m c t) (wdblk_apply m c t) (bdblk_apply m c t) (wpblk_apply m c t) (bpblk_apply m c t) r d

/-- Point `t` writes back, to the second result, rows `32 t … 32 t + 31` of `outP` of the arguments. -/
theorem writeback_p (c : Dev nD) (t : Fin cfg0.N) :
    (dats m 0 c).flushed 7 t = ((cfg0.win 7).blk t).view.read (Elt Ideal)
      (outP (argX m c) (argY m c) (argWd m c) (argBd m c) (argWp m c) (argBp m c)) := by
  rw [flushed7]
  unfold out0_7
  rw [View.canon_unit_zero zero_offsets2]
  simp only [View.ld_unit_zero (S := S32x256) zero_offsets2, View.ld_unit_zero (S := S256x4096) zero_offsets2, View.ld_unit_zero (S := S4096) zero_offsets1]
  obtain ⟨-, -, -, -, -, -, -, -, -, -, -, -, e0, e1⟩ := block_indices t
  refine funext fun (j : S32x256.Idx) => ?_
  obtain ⟨r, p, rfl⟩ : ∃ (r : Fin 32) (p : Fin 256), j = ix2 r p := ⟨j 0, j 1, eq_ix2 j⟩
  show k0_pay3 (F := Ideal) (xblk m c t) (yblk m c t) (wdblk m c t) (bdblk m c t) (wpblk m c t) (bpblk m c t) (ix2 r p)
    = outP (argX m c) (argY m c) (argWd m c) (argBd m c) (argWp m c) (argBp m c) (((cfg0.win 7).blk t).view.emb (ix2 r p))
  have he : ((cfg0.win 7).blk t).view.emb (ix2 r p) = (ix2 (row t r) p : S4096x256.Idx) := funext fun a => Fin.ext (by
    match a with
    | ⟨0, _⟩ => show win0_7.index t (0 : Fin 2) * 32 + 1 * r.val = t.val * 32 + r.val; rw [e0]; omega
    | ⟨1, _⟩ => show win0_7.index t (1 : Fin 2) * 256 + 1 * p.val = p.val; rw [e1]; omega)
  rw [he]
  exact Body.pay3_spec (xblk m c t) (yblk m c t) (wdblk m c t) (bdblk m c t) (wpblk m c t) (bpblk m c t)
    (argX m c) (argY m c) (argWd m c) (argBd m c) (argWp m c) (argBp m c) (row t)
    (xblk_apply m c t) (yblk_apply m c t) (wdblk_apply m c t) (bdblk_apply m c t) (wpblk_apply m c t) (bpblk_apply m c t) r p

/-! ## The 128 row blocks tile each result -/

/-- An index of the first result is in point `t`'s block iff each coordinate is in the block's range. -/
theorem mem_rows_d (t : Fin cfg0.N) (i : S4096x256.Idx) :
    i ∈ ((cfg0.win 6).blk t).view.set ↔ ∀ a : Fin 2, win0_6.index t a * S32x256.size a ≤ (i a).val ∧ (i a).val < win0_6.index t a * S32x256.size a + S32x256.size a := by
  show i ∈ ((View.whole main_v8_0).slice (win0_6.rect t)).set ↔ _
  rw [View.set_slice_whole, Rect.mem_set_unit]
  exact Iff.rfl

theorem mem_rows_p (t : Fin cfg0.N) (i : S4096x256.Idx) :
    i ∈ ((cfg0.win 7).blk t).view.set ↔ ∀ a : Fin 2, win0_7.index t a * S32x256.size a ≤ (i a).val ∧ (i a).val < win0_7.index t a * S32x256.size a + S32x256.size a := by
  show i ∈ ((View.whole main_v8_1).slice (win0_7.rect t)).set ↔ _
  rw [View.set_slice_whole, Rect.mem_set_unit]
  exact Iff.rfl

/-- The point whose block holds row `b`: `b / 32`. -/
def pointOf (i : S4096x256.Idx) : Fin cfg0.N :=
  ⟨(i 0).val / 32, by have hi : (i 0).val < 4096 := (i 0).isLt; have hN : cfg0.N = 128 := N_0; omega⟩

theorem rows_cover_d (i : S4096x256.Idx) : ∃ t : Fin cfg0.N, (cfg0.win 6).flush t = true ∧ i ∈ ((cfg0.win 6).blk t).view.set := by
  have hi0 : (i 0).val < 4096 := (i 0).isLt
  have hi1 : (i 1).val < 256 := (i 1).isLt
  obtain ⟨-, -, -, -, -, -, -, -, -, -, e0, e1, -⟩ := block_indices (pointOf i)
  have ht : (pointOf i).val = (i 0).val / 32 := rfl
  refine ⟨pointOf i, flush0_6 _, ?_⟩
  rw [mem_rows_d]
  intro a
  match a with
  | ⟨0, _⟩ => show win0_6.index (pointOf i) (0 : Fin 2) * 32 ≤ (i 0).val ∧ (i 0).val < win0_6.index (pointOf i) (0 : Fin 2) * 32 + 32; rw [e0, ht]; omega
  | ⟨1, _⟩ => show win0_6.index (pointOf i) (1 : Fin 2) * 256 ≤ (i 1).val ∧ (i 1).val < win0_6.index (pointOf i) (1 : Fin 2) * 256 + 256; rw [e1]; omega

theorem rows_cover_p (i : S4096x256.Idx) : ∃ t : Fin cfg0.N, (cfg0.win 7).flush t = true ∧ i ∈ ((cfg0.win 7).blk t).view.set := by
  have hi0 : (i 0).val < 4096 := (i 0).isLt
  have hi1 : (i 1).val < 256 := (i 1).isLt
  obtain ⟨-, -, -, -, -, -, -, -, -, -, -, -, e0, e1⟩ := block_indices (pointOf i)
  have ht : (pointOf i).val = (i 0).val / 32 := rfl
  refine ⟨pointOf i, flush0_7 _, ?_⟩
  rw [mem_rows_p]
  intro a
  match a with
  | ⟨0, _⟩ => show win0_7.index (pointOf i) (0 : Fin 2) * 32 ≤ (i 0).val ∧ (i 0).val < win0_7.index (pointOf i) (0 : Fin 2) * 32 + 32; rw [e0, ht]; omega
  | ⟨1, _⟩ => show win0_7.index (pointOf i) (1 : Fin 2) * 256 ≤ (i 1).val ∧ (i 1).val < win0_7.index (pointOf i) (1 : Fin 2) * 256 + 256; rw [e1]; omega

/-! ## The arrays after the run, and the run -/

theorem result_d_array (c : Dev nD) : (dats m 0 c).arrAt 6 cfg0.N
    = outD (argX m c) (argY m c) (argWd m c) (argBd m c) (argWp m c) (argBp m c) :=
  (dats m 0 c).arrAt_eq_of_cover 6 (outD (argX m c) (argY m c) (argWd m c) (argBd m c) (argWp m c) (argBp m c))
    (fun t _ => writeback_d m c t) rows_cover_d

theorem result_p_array (c : Dev nD) : (dats m 0 c).arrAt 7 cfg0.N
    = outP (argX m c) (argY m c) (argWd m c) (argBd m c) (argWp m c) (argBp m c) :=
  (dats m 0 c).arrAt_eq_of_cover 7 (outP (argX m c) (argY m c) (argWd m c) (argBd m c) (argWp m c) (argBp m c))
    (fun t _ => writeback_p m c t) rows_cover_p

/-- The kernel's run: it terminates with the two results at the specification of the arguments, the arguments unchanged. -/
theorem run : θ_run defs (onTc (τ := τ) (main (F := Ideal))) ⟨m, fun _ => 0, ρ⟩ fun r => ∀ c : Dev nD,
      r.2.mem ((c : Thread nD τ).loc main_v8_0) = outD (argX m c) (argY m c) (argWd m c) (argBd m c) (argWp m c) (argBp m c)
      ∧ r.2.mem ((c : Thread nD τ).loc main_v8_1) = outP (argX m c) (argY m c) (argWd m c) (argBd m c) (argWp m c) (argBp m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (result_d_array m c), (h c).2.1.trans (result_p_array m c), (h c).2.2⟩)
    (run_blocks m ρ)

end Cert.Interaction.Kernel

end
-- ==== Proof.RefSpec.lean ====
/-
  The reference computes the specification: read one operation at a time, its two results are `outD` and
  `outP` of its six arguments.

  The reference reshapes its rectified drug projection [4096, 4096] to [4096, 256, 16], so entry (b, d, h) is
  column `16 d + h`, and its protein projection to [4096, 16, 256], so entry (b, h, p) is column `256 h + p`;
  its `dot_general` contracts h with b a batch axis; it divides by the constant sixteen, applies tanh, sums
  over the last and over the middle axis from the initial value zero, applies tanh and multiplies.
-/
import proofs.«127848_j88983132438605_1_alg».proof.Proof.Gen.ReferenceIdeal.Read
import proofs.«127848_j88983132438605_1_alg».proof.Proof.Spec

noncomputable section

namespace Cert.Interaction.Ref

open Cert.ReferenceIdeal Cert.ReferenceIdeal.Read Idealize.ShloMosaic Idealize.ShloMosaic.ValueIdx Cert.Interaction

variable (x0 x1 : (⟨S4096x256, .f32⟩ : BufTy).Contents (Elt Ideal)) (x2 : (⟨S256x4096, .f32⟩ : BufTy).Contents (Elt Ideal))
  (x3 : (⟨S4096, .f32⟩ : BufTy).Contents (Elt Ideal)) (x4 : (⟨S256x4096, .f32⟩ : BufTy).Contents (Elt Ideal))
  (x5 : (⟨S4096, .f32⟩ : BufTy).Contents (Elt Ideal))

/-- The drug projection after its reshape: entry (b, d, h) is the rectified affine map's column `16 d + h`
    (row-major position `(256 b + d) 16 + h` of the [4096, 4096] array is row b, column `16 d + h`). -/
theorem drug_entry (b : Fin 4096) (d : Fin 256) (h : Fin 16) :
    val_main_v5 (F := Ideal) x0 x2 x3 (ix3 b d h) = lin x0 x2 x3 b (colDH d h) := by
  have hb := b.isLt; have hd := d.isLt; have hh := h.isLt
  rw [val_main_v5_apply, val_main_v4_apply, val_main_v3_apply, val_main_v0_apply, val_main_v2_apply, val_main_v1_apply,
    val_main_call0_v0_apply, val_main_call0_cst_apply]
  simp only [Ideal.maximumf_def, Ideal.addf_def, Ideal.ofBits_def, Ideal.ofBits_zero_f32]
  have e1 : ∀ k : Fin 256, lidx_main_v0 (idx_main_v5 (ix3 b d h)) k = ix2 b k := fun k => funext fun a => Fin.ext (by
    match a with
    | ⟨0, _⟩ => show ((b.val * 256 + d.val) * 16 + h.val) / 4096 = b.val; omega
    | ⟨1, _⟩ => rfl)
  have e2 : ∀ k : Fin 256, ridx_main_v0 (idx_main_v5 (ix3 b d h)) k = ix2 k (colDH d h) := fun k => funext fun a => Fin.ext (by
    match a with
    | ⟨0, _⟩ => rfl
    | ⟨1, _⟩ => show ((b.val * 256 + d.val) * 16 + h.val) % 4096 = d.val * 16 + h.val; omega)
  have e3 : idx_main_v1 (idx_main_v2 (idx_main_v5 (ix3 b d h))) = ix1 (colDH d h) := funext fun a => Fin.ext (by
    match a with
    | ⟨0, _⟩ => show ((b.val * 256 + d.val) * 16 + h.val) % 4096 = d.val * 16 + h.val; omega)
  simp only [e1, e2, e3]
  rfl

/-- The protein projection after its reshape: entry (b, h, p) is the rectified affine map's column `256 h + p`. -/
theorem protein_entry (b : Fin 4096) (h : Fin 16) (p : Fin 256) :
    val_main_v11 (F := Ideal) x1 x4 x5 (ix3 b h p) = lin x1 x4 x5 b (colHD h p) := by
  have hb := b.isLt; have hp := p.isLt; have hh := h.isLt
  rw [val_main_v11_apply, val_main_v10_apply, val_main_v9_apply, val_main_v6_apply, val_main_v8_apply, val_main_v7_apply,
    val_main_call1_v0_apply, val_main_call1_cst_apply]
  simp only [Ideal.maximumf_def, Ideal.addf_def, Ideal.ofBits_def, Ideal.ofBits_zero_f32]
  have e1 : ∀ k : Fin 256, lidx_main_v6 (idx_main_v11 (ix3 b h p)) k = ix2 b k := fun k => funext fun a => Fin.ext (by
    match a with
    | ⟨0, _⟩ => show ((b.val * 16 + h.val) * 256 + p.val) / 4096 = b.val; omega
    | ⟨1, _⟩ => rfl)
  have e2 : ∀ k : Fin 256, ridx_main_v6 (idx_main_v11 (ix3 b h p)) k = ix2 k (colHD h p) := fun k => funext fun a => Fin.ext (by
    match a with
    | ⟨0, _⟩ => rfl
    | ⟨1, _⟩ => show ((b.val * 16 + h.val) * 256 + p.val) % 4096 = h.val * 256 + p.val; omega)
  have e3 : idx_main_v7 (idx_main_v8 (idx_main_v11 (ix3 b h p))) = ix1 (colHD h p) := funext fun a => Fin.ext (by
    match a with
    | ⟨0, _⟩ => show ((b.val * 16 + h.val) * 256 + p.val) % 4096 = h.val * 256 + p.val; omega)
  simp only [e1, e2, e3]
  rfl

/-- The reference's interaction map at (b, d, p): the batched product contracts h, the quotient is by the
    constant sixteen, and the host's tanh is the extended reals' tanh. -/
theorem inter_entry (b : Fin 4096) (d p : Fin 256) :
    val_main_v15 (F := Ideal) x0 x1 x2 x3 x4 x5 (ix3 b d p) = inter x0 x1 x2 x3 x4 x5 b d p := by
  rw [val_main_v15_apply, val_main_v14_apply, val_main_v12_apply, val_main_v13_apply, val_main_cst_apply]
  simp only [Ideal.hostUnary_tanh_def, Ideal.hostDivf_def, Ideal.ofBits_def]
  have el : ∀ k : Fin 16, lidx_main_v12 (ix3 b d p) k = ix3 b d k := fun k => funext fun a => by
    match a with | ⟨0, _⟩ => rfl | ⟨1, _⟩ => rfl | ⟨2, _⟩ => rfl
  have er : ∀ k : Fin 16, ridx_main_v12 (ix3 b d p) k = ix3 b k p := fun k => funext fun a => by
    match a with | ⟨0, _⟩ => rfl | ⟨1, _⟩ => rfl | ⟨2, _⟩ => rfl
  unfold inter
  rw [Finset.sum_congr rfl fun k _ => by rw [el k, er k, drug_entry, protein_entry]]

/-- The reference's first result is `outD` of its arguments. -/
theorem result_d : val_main_v20 (F := Ideal) x0 x1 x2 x3 x4 x5 = outD x0 x1 x2 x3 x4 x5 := by
  funext i
  obtain ⟨b, d, rfl⟩ : ∃ (b : Fin 4096) (d : Fin 256), i = ix2 b d := ⟨i 0, i 1, eq_ix2 i⟩
  rw [val_main_v20_apply, val_main_v17_apply, val_main_v16_apply, val_main_cst_0_apply]
  simp only [Ideal.mulf_def, Ideal.hostUnary_tanh_def, Ideal.ofBits_def, Ideal.ofBits_zero_f32, zero_add]
  have e : ∀ k : Fin 256, idx_main_v16 (ix2 b d) k = ix3 b d k := fun k => funext fun a => by
    match a with | ⟨0, _⟩ => rfl | ⟨1, _⟩ => rfl | ⟨2, _⟩ => rfl
  rw [Finset.sum_congr rfl fun k _ => by rw [e k, inter_entry]]
  rfl

/-- The reference's second result is `outP` of its arguments. -/
theorem result_p : val_main_v21 (F := Ideal) x0 x1 x2 x3 x4 x5 = outP x0 x1 x2 x3 x4 x5 := by
  funext i
  obtain ⟨b, p, rfl⟩ : ∃ (b : Fin 4096) (p : Fin 256), i = ix2 b p := ⟨i 0, i 1, eq_ix2 i⟩
  rw [val_main_v21_apply, val_main_v19_apply, val_main_v18_apply, val_main_cst_1_apply]
  simp only [Ideal.mulf_def, Ideal.hostUnary_tanh_def, Ideal.ofBits_def, Ideal.ofBits_zero_f32, zero_add]
  have e : ∀ k : Fin 256, idx_main_v18 (ix2 b p) k = ix3 b k p := fun k => funext fun a => by
    match a with | ⟨0, _⟩ => rfl | ⟨1, _⟩ => rfl | ⟨2, _⟩ => rfl
  rw [Finset.sum_congr rfl fun k _ => by rw [e k, inter_entry]]
  rfl

end Cert.Interaction.Ref

end
-- ==== Proof.lean ====
/-
  The kernel and its reference compute one function over the extended reals.

  Both form two rectified affine maps of the 4096 batch rows, `max (x · W_d + b_d) 0` and `max (y · W_p + b_p) 0`,
  read the first as [b, d, h] and the second as [b, h, p], contract them over the 16 heads into the interaction map
  `tanh ((∑ h, ·) / 16)`, and return `x · tanh (∑ p, map)` and `y · tanh (∑ d, map)`. The kernel permutes the drug
  weights' and bias' columns on the host from d-major to h-major order and reads its projection as [b, h, d], which
  is the same entry; it narrows to bf16 and back, which is the identity on extended reals; and it multiplies by the
  constant one sixteenth where the reference divides by sixteen, which is the same on every extended real. No step
  needs the inputs finite. The specification is `Proof/Spec.lean`; `Proof/RefSpec.lean` shows the reference computes
  it, `Proof/Body.lean`, `Proof/KernelHost.lean` and `Proof/KernelValue.lean` that the kernel does.
-/
import proofs.«127848_j88983132438605_1_alg».proof.Defs
import proofs.«127848_j88983132438605_1_alg».proof.Proof.Gen.Kernel
import proofs.«127848_j88983132438605_1_alg».proof.Proof.Gen.Kernel.Skeleton
import proofs.«127848_j88983132438605_1_alg».proof.Proof.Gen.Kernel.Launch
import proofs.«127848_j88983132438605_1_alg».proof.Proof.Gen.Kernel.Points
import proofs.«127848_j88983132438605_1_alg».proof.Proof.Gen.Kernel.Frame
import proofs.«127848_j88983132438605_1_alg».proof.Proof.Gen.KernelIdeal
import proofs.«127848_j88983132438605_1_alg».proof.Proof.Gen.KernelIdeal.Skeleton
import proofs.«127848_j88983132438605_1_alg».proof.Proof.Gen.KernelIdeal.Launch
import proofs.«127848_j88983132438605_1_alg».proof.Proof.Gen.KernelIdeal.Points
import proofs.«127848_j88983132438605_1_alg».proof.Proof.Gen.KernelIdeal.Frame
import proofs.«127848_j88983132438605_1_alg».proof.Proof.Gen.ReferenceIdeal
import proofs.«127848_j88983132438605_1_alg».proof.Proof.Gen.Pre_finite_inputs
import proofs.«127848_j88983132438605_1_alg».proof.Proof.Gen.KernelIdeal.Value
import proofs.«127848_j88983132438605_1_alg».proof.Proof.Gen.ReferenceIdeal.Run
import proofs.«127848_j88983132438605_1_alg».proof.Proof.Gen.ReferenceIdeal.Read
import proofs.«127848_j88983132438605_1_alg».proof.Proof.KernelValue
import proofs.«127848_j88983132438605_1_alg».proof.Proof.RefSpec
import Idealize.ShloMosaic.Adequacy
import Idealize.ShloMosaic.Init

noncomputable section

namespace Cert.Proof

open Idealize.ShloMosaic Idealize.SL.Sem Cert.Interaction

/-- The reference runs and leaves its arguments as they were: its generated run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the six arguments both programs end with `outD` and `outP` of them. -/
theorem algebraic : Cert.algebraic_KernelIdeal_ReferenceIdeal := by
  intro m ρ m' ρ' _ hagree
  refine ⟨fun c => outD (Kernel.argX m c) (Kernel.argY m c) (Kernel.argWd m c) (Kernel.argBd m c) (Kernel.argWp m c) (Kernel.argBp m c),
    fun c => outP (Kernel.argX m c) (Kernel.argY m c) (Kernel.argWd m c) (Kernel.argBd m c) (Kernel.argWp m c) (Kernel.argBp m c),
    Kernel.run m ρ, ?_⟩
  refine (θ_run Cert.ReferenceIdeal.defs _ _).mono (fun _ h c => ?_) (Cert.ReferenceIdeal.Value.run (F := Ideal) m' ρ')
  obtain ⟨a0, a1, a2, a3, a4, a5⟩ := hagree c
  refine ⟨(h c).1.trans ?_, (h c).2.1.trans ?_, (h c).2.2⟩
  · rw [Cert.ReferenceIdeal.Read.val_main_v20_eq, Ref.result_d, a0, a1, a2, a3, a4, a5]
  · rw [Cert.ReferenceIdeal.Read.val_main_v21_eq, Ref.result_p, a0, a1, a2, a3, a4, a5]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
